-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192x8192 : Shape := ⟨2, ![8192, 8192]⟩
abbrev S512x128 : Shape := ⟨2, ![512, 128]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1x1024 : Shape := ⟨2, ![1, 1024]⟩
abbrev S128x1024 : Shape := ⟨2, ![128, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S512x1024, .f32⟩
  | .local _ .vmem, ⟨5, _⟩ => ⟨S512x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  reduces_S512x128_S512 : S512x128.Reduces [1] S512
  shapeCasts_S512_S512x1 : S512.ShapeCasts S512x1
  reduces_S1024x128_S1024 : S1024x128.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x128_p1_0_S128x1024 : S1024x128.Transposes [1, 0] S128x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S128x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.PairFrame.lean ====
/-
  The kernel program's run, for every float instance: the one pipelined region on its 16 x 8 grid, whose first two
  windows both read the argument array (512 rows at row block i, 1024 rows at row block j) and whose third window
  writes block (i, j) of the result.

  What differs from a region with one window per array is only how the argument array is held: the array's full
  share is dealt in two halves, one to each of the two reading windows, and the result array is held outright. The
  rest is the usual data of a region whose body only loads its two input blocks and stores its whole output block:
  each input's staging buffer holds that window's block of the argument at every point (fetched there or kept from
  the point before, the block index unchanged), the output's staging buffer holds the body's one stored value of the
  two blocks, nothing is carried between points. The run ends with every array at what the write-backs leave
  (`arrAt … N`): the argument as launched, the result overwritten block by block.
-/
import proofs.«107177_j24799141167804_1_alg».proof.Proof.Gen.KernelIdeal.Launch
import proofs.«107177_j24799141167804_1_alg».proof.Proof.Gen.KernelIdeal.Skeleton
import proofs.«107177_j24799141167804_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.PairFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- The program is the region alone, so the region finds every buffer as launched. -/
abbrev V (c : Dev nD) (b : Ref sig .tc) : Buf (Elt F) ((c : Thread nD τ).loc b) := m ((c : Thread nD τ).loc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

abbrev rowsRect : Rect S512x128 := Rect.unit (s := S512x128) ![0, 0] S512x128.size inb_S512x128_S512x128_0_0
abbrev colsRect : Rect S1024x128 := Rect.unit (s := S1024x128) ![0, 0] S1024x128.size inb_S1024x128_S1024x128_0_0
abbrev outRect : Rect S512x1024 := Rect.unit (s := S512x1024) ![0, 0] S512x1024.size inb_S512x1024_S512x1024_0_0

/-- The output window's buffer after the body: its one whole-block store, of the body's value of the two loaded
    blocks. -/
def distBlock (x0 : Vec F S512x128 .f32) (x1 : Vec F S1024x128 .f32) : Vec F S512x1024 .f32 :=
  View.canon [⟨outRect, k0_pay1 (View.ld x0 rowsRect) (View.ld x1 colsRect)⟩]

/-- The one store is of the whole block, so it covers it. -/
theorem outCover (p0 : Vec F S512x1024 .f32) (y : S512x1024.Idx) :
    ∃ pc ∈ ([⟨outRect, p0⟩] : List (View.Piece (Elt F) S512x1024 .f32)), y ∈ pc.1.set :=
  View.cover_of_tiled [⟨outRect, p0⟩] S512x1024.size (by rfl) y

/-! ## The body's triple -/

set_option maxHeartbeats 1000000 in
/-- The body on whole staging memrefs, the inputs' at read contents `x0`, `x1` and the output's at anything, runs
    to the continuation holding the inputs' as they were and the output's at `distBlock x0 x1`. -/
theorem sound_kernel (c : Dev nD) (E : Set ℕ) (i : grid0.Coords) (arg2 : Memref sig .tc .vmem S512x128 .f32) (harg2 : arg2.IsWhole)
    (arg3 : Memref sig .tc .vmem S1024x128 .f32) (harg3 : arg3.IsWhole) (arg4 : Memref sig .tc .vmem S512x1024 .f32) (harg4 : arg4.IsWhole)
    (x0 : Vec F S512x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (distBlock x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The region's proof data -/

/-- On core `c`: the arrays as found; after the body at point `t` each input's buffer at its block and the output's at
    `distBlock` of the two blocks; between points only the core's other scoped buffers (there are none); nothing
    owed; the argument array's share halved between its two reading windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => distBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_out (c : Dev nD) (t : Fin cfg0.N) : (dats m 0 c).after 2 t = distBlock (iblk m c 0 t) (iblk m c 1 t) := by dsimp only [dats]

/-- The row window's buffer holds its block at every point: at the 16 points that fetch it by the fetch, at the
    others because the block index has not moved since the point before and the body left the block in place. -/
theorem before_rows (c : Dev nD) (t : Fin cfg0.N) (d) : (dats m 0 c).before 0 t d = iblk m c 0 t :=
  ((dats m 0 c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)

/-- The column window is fetched at every point; the same lemma reads it. -/
theorem before_cols (c : Dev nD) (t : Fin cfg0.N) (d) : (dats m 0 c).before 1 t d = iblk m c 1 t :=
  ((dats m 0 c).before_in_eq_fetched 1 rfl (fun _ => rfl) (fun _ _ _ => rfl)
      (fun t => by rw [after_cols]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input memrefs hold their blocks, so the body's triple applies; what is held
    between points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch -/

/-- The windows' arrays are two distinct buffers: the argument and the result. -/
theorem arrBufs_pair {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- The two distinct buffers behind the three windows' arrays, each whole at the full share, make the region's
    holdings at entry: the argument array's full share is its left half for the row window and its right half for
    the column window; the result array goes to the output window outright. -/
theorem split_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, arrBufs_pair]
  rw [(arr_whole0 0).set_eq_univ, (arr_whole0 2).set_eq_univ,
    show (dats m 0 c).share 0 = fullShare.left from rfl, show (dats m 0 c).share 1 = fullShare.right from rfl,
    show (dats m 0 c).share 2 = fullShare from rfl]
  iintro ⟨Ha, Ho⟩
  ihave Ha2 := (pointsTo_share (PosShare.mem_left_op_right fullShare)).1 $$ Ha
  icases Ha2 with ⟨Hl, Hr⟩
  isplitl [Hl]; · iexact Hl
  isplitl [Hr]; · iexact Hr
  iexact Ho

-- the launch theorem's implicit arguments are found by unifying its conclusion with this one
set_option backward.isDefEq.respectTransparency.types false in
/-- From any memory with zero counters every weakly fair execution of the program terminates, and every final
    state has each window's array at what the write-backs leave. -/
theorem run_main : θ_run defs (onTc (τ := τ) (main (F := F))) (s₀ m ρ)
    (fun r => ∀ (c : Dev nD) (w : Fin cfg0.W), r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m)
    (hmain := fun c Q => by
      simp only [main, Prog.lift, Prog.bind_op, Prog.bind_ret]
      iintro ⟨Hk, Hb⟩; iapply Hk; iexact Hb)
    (hsplit := split_arrays m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-! ## The run, read at the program's two arrays -/

/-- The argument array ends as launched (its windows only read it), the result array at what the output window's
    write-backs leave. -/
theorem run_named : θ_run defs (onTc (τ := τ) (main (F := F))) ⟨m, fun _ => 0, ρ⟩ fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0) :=
  (θ_run defs _ _).mono (fun r h c => ⟨h c 2, (h c 0).trans (((dats m 0 c).arrAt_in 0 rfl _).trans (A_eq m c 0))⟩)
    (run_main m ρ)

/-- The frame: the program runs to the end, faults nowhere, and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_named m ρ)

end Cert.KernelIdeal.PairFrame

end
-- ==== Proof.PairFrameBits.lean ====
/-
  The kernel program's run, for every float instance: the one pipelined region on its 16 x 8 grid, whose first two
  windows both read the argument array (512 rows at row block i, 1024 rows at row block j) and whose third window
  writes block (i, j) of the result.

  What differs from a region with one window per array is only how the argument array is held: the array's full
  share is dealt in two halves, one to each of the two reading windows, and the result array is held outright. The
  rest is the usual data of a region whose body only loads its two input blocks and stores its whole output block:
  each input's staging buffer holds that window's block of the argument at every point (fetched there or kept from
  the point before, the block index unchanged), the output's staging buffer holds the body's one stored value of the
  two blocks, nothing is carried between points. The run ends with every array at what the write-backs leave
  (`arrAt … N`): the argument as launched, the result overwritten block by block.
-/
import proofs.«107177_j24799141167804_1_alg».proof.Proof.Gen.Kernel.Launch
import proofs.«107177_j24799141167804_1_alg».proof.Proof.Gen.Kernel.Skeleton
import proofs.«107177_j24799141167804_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.PairFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- The program is the region alone, so the region finds every buffer as launched. -/
abbrev V (c : Dev nD) (b : Ref sig .tc) : Buf (Elt F) ((c : Thread nD τ).loc b) := m ((c : Thread nD τ).loc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

abbrev rowsRect : Rect S512x128 := Rect.unit (s := S512x128) ![0, 0] S512x128.size inb_S512x128_S512x128_0_0
abbrev colsRect : Rect S1024x128 := Rect.unit (s := S1024x128) ![0, 0] S1024x128.size inb_S1024x128_S1024x128_0_0
abbrev outRect : Rect S512x1024 := Rect.unit (s := S512x1024) ![0, 0] S512x1024.size inb_S512x1024_S512x1024_0_0

/-- The output window's buffer after the body: its one whole-block store, of the body's value of the two loaded
    blocks. -/
def distBlock (x0 : Vec F S512x128 .f32) (x1 : Vec F S1024x128 .f32) : Vec F S512x1024 .f32 :=
  View.canon [⟨outRect, k0_pay1 (View.ld x0 rowsRect) (View.ld x1 colsRect)⟩]

/-- The one store is of the whole block, so it covers it. -/
theorem outCover (p0 : Vec F S512x1024 .f32) (y : S512x1024.Idx) :
    ∃ pc ∈ ([⟨outRect, p0⟩] : List (View.Piece (Elt F) S512x1024 .f32)), y ∈ pc.1.set :=
  View.cover_of_tiled [⟨outRect, p0⟩] S512x1024.size (by rfl) y

/-! ## The body's triple -/

set_option maxHeartbeats 1000000 in
/-- The body on whole staging memrefs, the inputs' at read contents `x0`, `x1` and the output's at anything, runs
    to the continuation holding the inputs' as they were and the output's at `distBlock x0 x1`. -/
theorem sound_kernel (c : Dev nD) (E : Set ℕ) (i : grid0.Coords) (arg2 : Memref sig .tc .vmem S512x128 .f32) (harg2 : arg2.IsWhole)
    (arg3 : Memref sig .tc .vmem S1024x128 .f32) (harg3 : arg3.IsWhole) (arg4 : Memref sig .tc .vmem S512x1024 .f32) (harg4 : arg4.IsWhole)
    (x0 : Vec F S512x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (distBlock x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The region's proof data -/

/-- On core `c`: the arrays as found; after the body at point `t` each input's buffer at its block and the output's at
    `distBlock` of the two blocks; between points only the core's other scoped buffers (there are none); nothing
    owed; the argument array's share halved between its two reading windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => distBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_out (c : Dev nD) (t : Fin cfg0.N) : (dats m 0 c).after 2 t = distBlock (iblk m c 0 t) (iblk m c 1 t) := by dsimp only [dats]

/-- The row window's buffer holds its block at every point: at the 16 points that fetch it by the fetch, at the
    others because the block index has not moved since the point before and the body left the block in place. -/
theorem before_rows (c : Dev nD) (t : Fin cfg0.N) (d) : (dats m 0 c).before 0 t d = iblk m c 0 t :=
  ((dats m 0 c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)

/-- The column window is fetched at every point; the same lemma reads it. -/
theorem before_cols (c : Dev nD) (t : Fin cfg0.N) (d) : (dats m 0 c).before 1 t d = iblk m c 1 t :=
  ((dats m 0 c).before_in_eq_fetched 1 rfl (fun _ => rfl) (fun _ _ _ => rfl)
      (fun t => by rw [after_cols]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two input memrefs hold their blocks, so the body's triple applies; what is held
    between points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch -/

/-- The windows' arrays are two distinct buffers: the argument and the result. -/
theorem arrBufs_pair {M : Type} [URA M] (Φ : Ref sig .tc → sProp M) :
    bigSep (Finset.univ.image (Pipeline.arrRef spec0)) Φ = iprop(Φ main_arg0 ∗ Φ main_v0) :=
  bigSep_eq_bigSepL_of_eq [main_arg0, main_v0] (by decide) (by decide) Φ

/-- The two distinct buffers behind the three windows' arrays, each whole at the full share, make the region's
    holdings at entry: the argument array's full share is its left half for the row window and its right half for
    the column window; the result array goes to the output window outright. -/
theorem split_arrays (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, arrBufs_pair]
  rw [(arr_whole0 0).set_eq_univ, (arr_whole0 2).set_eq_univ,
    show (dats m 0 c).share 0 = fullShare.left from rfl, show (dats m 0 c).share 1 = fullShare.right from rfl,
    show (dats m 0 c).share 2 = fullShare from rfl]
  iintro ⟨Ha, Ho⟩
  ihave Ha2 := (pointsTo_share (PosShare.mem_left_op_right fullShare)).1 $$ Ha
  icases Ha2 with ⟨Hl, Hr⟩
  isplitl [Hl]; · iexact Hl
  isplitl [Hr]; · iexact Hr
  iexact Ho

-- the launch theorem's implicit arguments are found by unifying its conclusion with this one
set_option backward.isDefEq.respectTransparency.types false in
/-- From any memory with zero counters every weakly fair execution of the program terminates, and every final
    state has each window's array at what the write-backs leave. -/
theorem run_main : θ_run defs (onTc (τ := τ) (main (F := F))) (s₀ m ρ)
    (fun r => ∀ (c : Dev nD) (w : Fin cfg0.W), r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m)
    (hmain := fun c Q => by
      simp only [main, Prog.lift, Prog.bind_op, Prog.bind_ret]
      iintro ⟨Hk, Hb⟩; iapply Hk; iexact Hb)
    (hsplit := split_arrays m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-! ## The run, read at the program's two arrays -/

/-- The argument array ends as launched (its windows only read it), the result array at what the output window's
    write-backs leave. -/
theorem run_named : θ_run defs (onTc (τ := τ) (main (F := F))) ⟨m, fun _ => 0, ρ⟩ fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0) :=
  (θ_run defs _ _).mono (fun r h c => ⟨h c 2, (h c 0).trans (((dats m 0 c).arrAt_in 0 rfl _).trans (A_eq m c 0))⟩)
    (run_main m ρ)

/-- The frame: the program runs to the end, faults nowhere, and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_named m ρ)

end Cert.Kernel.PairFrame

end
-- ==== Proof.Spec.lean ====
/-
  The function both programs compute, over the extended reals, of one array x of 8192 rows and 128 columns: the
  negated Euclidean distance between rows r and s through the squared-norm identity,
      -( sqrt ( max ( (|x_r|² + |x_s|²) - 2 · <x_r, x_s> , 0 ) ) ),
  with |x_r|² the sum over the 128 columns of x(r,k)·x(r,k) and <x_r, x_s> the sum of x(r,k)·x(s,k). The factor 2 is
  kept as the float word both programs spell; it is never evaluated.
-/
import Idealize.ShloMosaic.Lib.ValueIdx
import Idealize.ShloMosaic.PureOps.Ideal.Laws

noncomputable section

namespace Cert.PairDist

open Idealize.ShloMosaic Idealize.ShloMosaic.ValueIdx

/-- An array of 8192 feature rows of 128 columns, at the ideal values. -/
abbrev Feat : Type := (⟨2, ![8192, 128]⟩ : Shape).Idx → EReal

/-- The squared norm of row r: the sum over the columns of the entry times itself. -/
def sqNorm (x : Feat) (r : Fin 8192) : EReal := ∑ k : Fin 128, x (ix2 r k) * x (ix2 r k)

/-- The inner product of rows r and s. -/
def inner (x : Feat) (r s : Fin 8192) : EReal := ∑ k : Fin 128, x (ix2 r k) * x (ix2 s k)

/-- The clamped squared distance between rows r and s, then its negated root. -/
def negDistAt (x : Feat) (r s : Fin 8192) : EReal :=
  -(Ideal.sqrt (max ((sqNorm x r + sqNorm x s) - Ideal.ofBits .f32 0x40000000#32 * inner x r s) 0))

/-- The whole result: entry (r, s) is the negated distance between rows r and s. -/
def negDist (x : Feat) : (⟨2, ![8192, 8192]⟩ : Shape).Idx → EReal := fun i => negDistAt x (i 0) (i 1)

theorem negDist_ix2 (x : Feat) (r s : Fin 8192) : negDist x (ix2 r s) = negDistAt x r s := rfl

end Cert.PairDist

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.LibMatLayout.lean ====
/-
  Two layout operations on matrices read at an entry given by its coordinates, for any extents.
  * A unit-stride rectangular piece of a matrix `[n, m]`, `a` rows by `b` columns starting at `(o₀, o₁)`: its entry
    `(p, q)` is the matrix at `(o₀ + p, o₁ + q)` (`slice2_apply`; the target index is a parameter with its two
    coordinate equations, so that a caller may spell `0 + k` as `k`).
  * A column `[n, 1]` repeated along the columns to `[n, b]`: its entry `(p, q)` is the column at `(p, 0)`
    (`colBcast_apply`).
-/
import Idealize.ShloMosaic.Lib.ValueLayout

namespace Cert.MatLayout

open Idealize.ShloMosaic Idealize.ShloMosaic.ValueIdx

variable {α : Type}

/-- Entry `(p, q)` of the `a × b` piece of `x` at offsets `(o₀, o₁)` is `x` at `(i, j)` with `i = o₀ + p`, `j = o₁ + q`. -/
theorem slice2_apply {n m a b : ℕ} (off : Fin 2 → ℕ) (x : (⟨2, ![n, m]⟩ : Shape).Idx → α)
    (h : (⟨2, ![n, m]⟩ : Shape).Slices off ⟨2, ![a, b]⟩) (p : Fin a) (q : Fin b) (i : Fin n) (j : Fin m)
    (hi : i.val = off 0 + p.val) (hj : j.val = off 1 + q.val) :
    extractStridedSlice ⟨2, ![a, b]⟩ off x h (ix2 p q) = x (ix2 i j) :=
  extractStridedSlice_apply off x h (ix2 p q) (ix2 i j) fun ax => by
    match ax with
    | ⟨0, _⟩ => exact hi
    | ⟨1, _⟩ => exact hj

/-- Entry `(p, q)` of a column repeated along the columns is the column's entry `(p, 0)`. -/
theorem colBcast_apply {n b : ℕ} (x : (⟨2, ![n, 1]⟩ : Shape).Idx → α)
    (h : (⟨2, ![n, 1]⟩ : Shape).Broadcasts ⟨2, ![n, b]⟩) (p : Fin n) (q : Fin b) :
    broadcastTo ⟨2, ![n, b]⟩ x h (ix2 p q) = x (ix2 p (0 : Fin 1)) := by
  refine broadcastTo_apply x h (ix2 p q) (ix2 p (0 : Fin 1)) fun ax => ?_
  match ax with
  | ⟨0, _⟩ =>
    show p.val = if n = 1 then 0 else p.val
    split
    · have := p.isLt; omega
    · rfl
  | ⟨1, _⟩ => rfl

end Cert.MatLayout
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.Payload.lean ====
/-
  The kernel body's one stored value, read at entry (p, q) of its 512 x 1024 block at the ideal values, as a function
  of the two loaded blocks: rows p of the first and q of the second.
-/
import proofs.«107177_j24799141167804_1_alg».proof.Proof.Spec
import proofs.«107177_j24799141167804_1_alg».proof.Proof.LibPlainDot
import proofs.«107177_j24799141167804_1_alg».proof.Proof.LibMatLayout
import proofs.«107177_j24799141167804_1_alg».proof.Proof.LibRowLayout
import proofs.«107177_j24799141167804_1_alg».proof.Proof.Gen.KernelIdeal.Skeleton
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen

variable {α : Type}

/-- A vector given a trailing unit axis, read at (i, 0), is the vector at i: both sit at row-major position i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The squared norm of row p of the first block, kept as a column and repeated along the columns, at (p, q). -/
theorem normL_apply (x0 : Vec Ideal S512x128 .f32) (p : Fin 512) (q : Fin 1024) :
    broadcastTo S512x1024
        (shapeCast S512x1
          (multiReduction (F := Ideal) .add [1] S512 (mulf x0 x0) 0x00000000#32 reduces_S512x128_S512 (.inl rfl) rfl)
          shapeCasts_S512_S512x1)
        broadcasts_S512x1_S512x1024 (ix2 p q)
      = ∑ k : Fin 128, x0 (ix2 p k) * x0 (ix2 p k) := by
  refine (Cert.MatLayout.colBcast_apply _ broadcasts_S512x1_S512x1024 p q).trans ?_
  refine (shapeCast_a_a1_apply _ shapeCasts_S512_S512x1 p 0).trans ?_
  exact Cert.RowLayout.sumCols_apply (mulf x0 x0) 0x00000000#32 reduces_S512x128_S512 (.inl rfl) rfl p

/-- The squared norm of row q of the second block, kept as a column, turned into a row and repeated along the rows,
    at (p, q). -/
theorem normR_apply (x1 : Vec Ideal S1024x128 .f32) (p : Fin 512) (q : Fin 1024) :
    broadcastTo S512x1024
        (transpose S1x1024 [1, 0]
          (shapeCast S1024x1
            (multiReduction (F := Ideal) .add [1] S1024 (mulf x1 x1) 0x00000000#32 reduces_S1024x128_S1024 (.inl rfl) rfl)
            shapeCasts_S1024_S1024x1)
          transposes_S1024x1_p1_0_S1x1024)
        broadcasts_S1x1024_S512x1024 (ix2 p q)
      = ∑ k : Fin 128, x1 (ix2 q k) * x1 (ix2 q k) := by
  refine (broadcastTo_1b_ab_apply _ broadcasts_S1x1024_S512x1024 p q).trans ?_
  refine (transpose_ix2_apply _ transposes_S1024x1_p1_0_S1x1024 (0 : Fin 1) q).trans ?_
  refine (shapeCast_a_a1_apply _ shapeCasts_S1024_S1024x1 q 0).trans ?_
  exact Cert.RowLayout.sumCols_apply (mulf x1 x1) 0x00000000#32 reduces_S1024x128_S1024 (.inl rfl) rfl q

/-- The product of the first block with the transposed second block, at (p, q): the inner product of rows p and q
    (the narrowing to the 16-bit format is the identity at the ideal values). -/
theorem cross_apply (x0 : Vec Ideal S512x128 .f32) (x1 : Vec Ideal S1024x128 .f32) (p : Fin 512) (q : Fin 1024) :
    matmul dot_S512x128_S128x1024_S512x1024_1_0_0_1_n_n none
        (truncf (F := Ideal) .bf16 x0 bitsLt_bf16_f32)
        (transpose S128x1024 [1, 0] (truncf (F := Ideal) .bf16 x1 bitsLt_bf16_f32) transposes_S1024x128_p1_0_S128x1024)
        (constant (F := Ideal) S512x1024 .f32 0x00000000#32) (ix2 p q)
      = ∑ k : Fin 128, x0 (ix2 p k) * x1 (ix2 q k) := by
  refine (Cert.PlainDot.matmul_zero_apply dot_S512x128_S128x1024_S512x1024_1_0_0_1_n_n rfl none _ _ p q).trans ?_
  refine Finset.sum_congr rfl fun k _ => ?_
  exact congrArg (fun t => x0 (ix2 p k) * t)
    (transpose_ix2_apply (truncf (F := Ideal) .bf16 x1 bitsLt_bf16_f32) transposes_S1024x128_p1_0_S128x1024 k q)

/-- Entry (p, q) of the stored block: the negated root of the clamped squared distance between row p of the first
    loaded block and row q of the second. -/
theorem pay_apply (x0 : Vec Ideal S512x128 .f32) (x1 : Vec Ideal S1024x128 .f32) (p : Fin 512) (q : Fin 1024) :
    k0_pay1 (F := Ideal) x0 x1 (ix2 p q)
      = -(Ideal.sqrt (max (((∑ k : Fin 128, x0 (ix2 p k) * x0 (ix2 p k)) + (∑ k : Fin 128, x1 (ix2 q k) * x1 (ix2 q k)))
            - Ideal.ofBits .f32 0x40000000#32 * ∑ k : Fin 128, x0 (ix2 p k) * x1 (ix2 q k)) 0)) := by
  unfold k0_pay1
  dsimp only
  -- every remaining operation is entrywise, so the entry (p, q) is the same expression of the operands' entries
  show Ideal.ofBits .f32 0x00000000#32
      - Ideal.sqrt (max ((_ + _) - Ideal.ofBits .f32 0x40000000#32 * _) (Ideal.ofBits .f32 0x00000000#32)) = _
  rw [normL_apply x0 p q, normR_apply x1 p q, cross_apply x0 x1 p q, Ideal.ofBits_zero_f32, zero_sub]

end Cert.KernelIdeal.Payload

end
-- ==== Proof.PairValue.lean ====
/-
  The result array after the idealized kernel's run, at the ideal values, is the negated distance matrix of the
  argument array.

  Grid point t = (i, j) writes back block (i, j) of the result: 512 rows by 1024 columns at row offset 512·i and
  column offset 1024·j. Its entry (p, q) is the body's value of rows p of the row window's block and q of the column
  window's block; the row window's block at t is rows 512·i … of the argument and the column window's block rows
  1024·j … of the SAME argument, so the entry is the negated distance between argument rows 512·i + p and 1024·j + q:
  entry (512·i + p, 1024·j + q) of the distance matrix. The 16 x 8 blocks tile the 8192 x 8192 result, so the whole
  array is that matrix.
-/
import proofs.«107177_j24799141167804_1_alg».proof.Proof.PairFrame
import proofs.«107177_j24799141167804_1_alg».proof.Proof.Payload
import proofs.«107177_j24799141167804_1_alg».proof.Proof.Spec
import Idealize.ShloMosaic.Lib.Pipeline.Value

set_option maxRecDepth 16384

noncomputable section

namespace Cert.KernelIdeal.PairValue

open Cert.KernelIdeal Cert.KernelIdeal.Gen Cert.KernelIdeal.PairFrame Cert.KernelIdeal.Payload
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeroOff : (![0, 0] : Fin 2 → Nat) = fun _ => 0 := funext fun a => by fin_cases a <;> rfl

/-- The printed index maps over the grid: the row window's row block is the output's row block, the column window's
    row block is the output's COLUMN block, neither reading window moves along its columns, and the output's block
    indices stay below 16 and 8. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 7 :=
  (by decide +kernel : ∀ t : Fin grid0.N, _)

/-- Every one of the 16 x 8 output blocks is some grid point's. -/
theorem index_onto : ∀ (b0 : Fin 16) (b1 : Fin 8), ∃ t : Fin cfg0.N, win0_2.index t = ![b0.val, b1.val] :=
  (by decide +kernel : ∀ (b0 : Fin 16) (b1 : Fin 8), ∃ t : Fin grid0.N, win0_2.index t = ![b0.val, b1.val])

/-- What grid point `t` writes back is block `t` of the distance matrix of the argument array. -/
theorem flushed_eq (c : Dev nD) (t : Fin cfg0.N) :
    (dats m 0 c).flushed 2 t
      = ((cfg0.win 2).blk t).view.read (Elt Ideal) (Cert.PairDist.negDist (V m c main_arg0)) := by
  show (cfg0.win 2).cut (grid0.coords t) ((dats m 0 c).after 2 t) = _
  rw [after_out]
  unfold distBlock
  rw [View.canon_unit_zero zeroOff]
  simp only [View.ld_unit_zero (S := S512x128) zeroOff, View.ld_unit_zero (S := S1024x128) zeroOff]
  obtain ⟨e0, e1, e2, e3, -, -⟩ := index_facts t
  funext j
  obtain ⟨p, q, rfl⟩ : ∃ (p : Fin 512) (q : Fin 1024), j = ix2 p q := ⟨j 0, j 1, eq_ix2 j⟩
  show k0_pay1 (F := Ideal) (iblk m c 0 t) (iblk m c 1 t) (ix2 p q)
      = Cert.PairDist.negDist (V m c main_arg0) (((cfg0.win 2).blk t).view.emb (ix2 p q))
  refine (pay_apply (iblk m c 0 t) (iblk m c 1 t) p q).trans ?_
  -- row p of the row window's block is argument row 512·i + p, the output entry's row
  have hrow : ∀ k : Fin 128, iblk m c 0 t (ix2 p k)
      = V m c main_arg0 (ix2 ((((cfg0.win 2).blk t).view.emb (ix2 p q)) 0) k) := fun k => by
    show V m c main_arg0 (((cfg0.win 0).blk t).view.emb (ix2 p k)) = _
    refine congrArg _ (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 128 + 1 * k.val = k.val; omega
  -- row q of the column window's block is argument row 1024·j + q, the output entry's column
  have hcol : ∀ k : Fin 128, iblk m c 1 t (ix2 q k)
      = V m c main_arg0 (ix2 ((((cfg0.win 2).blk t).view.emb (ix2 p q)) 1) k) := fun k => by
    show V m c main_arg0 (((cfg0.win 1).blk t).view.emb (ix2 q k)) = _
    refine congrArg _ (funext fun a => Fin.ext ?_)
    match a with
    | ⟨0, _⟩ => show win0_1.index t (0 : Fin 2) * 1024 + 1 * q.val = win0_2.index t (1 : Fin 2) * 1024 + 1 * q.val; omega
    | ⟨1, _⟩ => show win0_1.index t (1 : Fin 2) * 128 + 1 * k.val = k.val; omega
  simp only [hrow, hcol]
  rfl

/-- An index of the result is in point `t`'s block iff each coordinate is in the block's range on its axis. -/
theorem mem_block (t : Fin cfg0.N) (i : S8192x8192.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every entry (r, s) of the result lies in the block of the point with row block r / 512 and column block
    s / 1024, and every point writes its block back. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := index_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the run is the distance matrix of the argument array as launched. -/
theorem final (c : Dev nD) :
    (dats m 0 c).arrAt 2 cfg0.N = Cert.PairDist.negDist (m ((c.tc : Thread nD τ).loc main_arg0)) :=
  (dats m 0 c).arrAt_eq_of_cover 2 (Cert.PairDist.negDist (V m c main_arg0)) (fun t _ => flushed_eq m c t) covered

/-- The idealized kernel's run: the result is the distance matrix of the argument, the argument unchanged. -/
theorem run : θ_run defs (onTc (τ := τ) (main (F := Ideal))) ⟨m, fun _ => 0, ρ⟩ fun r => ∀ c : Dev nD,
      r.2.mem ((c.tc : Thread nD τ).loc main_v0) = Cert.PairDist.negDist (m ((c.tc : Thread nD τ).loc main_arg0))
      ∧ r.2.mem ((c.tc : Thread nD τ).loc main_arg0) = m ((c.tc : Thread nD τ).loc main_arg0) :=
  (θ_run defs _ _).mono (fun r h c => ⟨(h c).1.trans (final m c), (h c).2⟩) (run_named m ρ)

end Cert.KernelIdeal.PairValue

end
-- ==== Proof.RefValue.lean ====
/-
  The reference's result, read entry by entry at the ideal values, is the negated row distance of Spec.lean.
-/
import proofs.«107177_j24799141167804_1_alg».proof.Proof.Spec
import proofs.«107177_j24799141167804_1_alg».proof.Proof.LibPlainDot
import proofs.«107177_j24799141167804_1_alg».proof.Proof.Gen.ReferenceIdeal.Run
import proofs.«107177_j24799141167804_1_alg».proof.Proof.Gen.ReferenceIdeal.Read

noncomputable section

namespace Cert.ReferenceIdeal.RefValue

open Idealize.ShloMosaic Idealize.ShloMosaic.ValueIdx Cert.ReferenceIdeal Cert.ReferenceIdeal.Gen Cert.ReferenceIdeal.Read

/-- The reference's last stage, as a function of its one argument array, is the negated distance matrix. -/
theorem ref_is_negDist (x : (⟨S8192x128, .f32⟩ : BufTy).Contents (Elt Ideal)) :
    val_main_v15 (F := Ideal) x = Cert.PairDist.negDist x := by
  funext i
  obtain ⟨r, s, rfl⟩ : ∃ (r s : Fin 8192), i = ix2 r s := ⟨i 0, i 1, eq_ix2 i⟩
  -- the composed index maps, at entry (r, s), name entries (r, k) and (s, k) of the argument
  have e1 : ∀ k : Fin 128, idx_main_v1 (idx_main_v4 (idx_main_v6 (ix2 r s))) k = ix2 r k := fun k =>
    funext fun a => Fin.ext (by match a with | ⟨0, _⟩ => rfl | ⟨1, _⟩ => rfl)
  have e2 : ∀ k : Fin 128, idx_main_v1 (idx_main_v5 (idx_main_v7 (ix2 r s))) k = ix2 s k := fun k =>
    funext fun a => Fin.ext (by match a with | ⟨0, _⟩ => rfl | ⟨1, _⟩ => rfl)
  have e3 : ∀ k : Fin 128, lidx_main_v3 (ix2 r s) k = ix2 r k := fun k =>
    funext fun a => Fin.ext (by match a with | ⟨0, _⟩ => rfl | ⟨1, _⟩ => rfl)
  have e4 : ∀ k : Fin 128, idx_main_v2 (ridx_main_v3 (ix2 r s) k) = ix2 s k := fun k =>
    funext fun a => Fin.ext (by match a with | ⟨0, _⟩ => rfl | ⟨1, _⟩ => rfl)
  -- read every stage at its entry: the two row sums (each from the zero word), the contraction, the constants
  rw [val_main_v15_apply, val_main_v14_apply, val_main_v13_apply, val_main_v11_apply, val_main_v8_apply,
    val_main_v6_apply, val_main_v4_apply, val_main_v1_apply, val_main_v7_apply, val_main_v5_apply,
    val_main_v1_apply, val_main_v10_apply, val_main_v9_apply, val_main_v3_apply, val_main_v12_apply,
    val_main_cst_apply, val_main_cst_0_apply, val_main_cst_1_apply]
  simp only [val_main_v0_apply, val_main_v2_apply, e1, e2, e3, e4]
  -- at the ideal values the operations are those of the extended reals; the zero word is 0, the word for 2 stays
  simp only [Ideal.hostNegf_def, Ideal.negf_def, Ideal.hostUnary_sqrt_def, Ideal.maximumf_def, Ideal.subf_def,
    Ideal.addf_def, Ideal.mulf_def, Ideal.ofBits_def, Ideal.ofBits_zero_f32, zero_add]
  rfl

end Cert.ReferenceIdeal.RefValue

end
-- ==== Proof.lean ====
/-
  The certificate: a pairwise negated Euclidean distance kernel against its jnp reference, over the extended reals.

  Both programs compute, for an array x of 8192 rows and 128 columns, the matrix whose entry (r, s) is
      -( sqrt ( max ( (|x_r|² + |x_s|²) - 2 · <x_r, x_s> , 0 ) ) )
  (Proof/Spec.lean). The kernel does it block by block on a 16 x 8 grid, reading the SAME argument array through two
  windows (512 rows for the left factor, 1024 rows for the right) and writing a 512 x 1024 block of the result per
  point; the reference does it with whole-array operations. At the ideal values the kernel's row sums and its matrix
  product into a zero accumulator are the reference's sums and contraction, the narrowing to the 16-bit format is
  the identity, and the kernel's 0 - y is the reference's -y, so no law beyond the spelling of the sums is needed
  and the precondition is not used.

  * Proof/PairFrame.lean — the kernel program's run for every float instance (the frame), the argument array's
    share halved between its two reading windows; Proof/PairFrameBits.lean is the same module for the word-level
    program, which prints with the same text.
  * Proof/Payload.lean — the body's stored value read at an entry.
  * Proof/PairValue.lean — the result array after the idealized kernel's run is the distance matrix.
  * Proof/RefValue.lean — so is the reference's last stage.
-/
import proofs.«107177_j24799141167804_1_alg».proof.Defs
import proofs.«107177_j24799141167804_1_alg».proof.Proof.Gen.Kernel
import proofs.«107177_j24799141167804_1_alg».proof.Proof.Gen.KernelIdeal
import proofs.«107177_j24799141167804_1_alg».proof.Proof.Gen.ReferenceIdeal
import proofs.«107177_j24799141167804_1_alg».proof.Proof.Gen.Pre_finite_inputs
import proofs.«107177_j24799141167804_1_alg».proof.Proof.Gen.ReferenceIdeal.Run
import proofs.«107177_j24799141167804_1_alg».proof.Proof.Gen.ReferenceIdeal.Read
import proofs.«107177_j24799141167804_1_alg».proof.Proof.PairFrame
import proofs.«107177_j24799141167804_1_alg».proof.Proof.PairFrameBits
import proofs.«107177_j24799141167804_1_alg».proof.Proof.PairValue
import proofs.«107177_j24799141167804_1_alg».proof.Proof.RefValue

noncomputable section

namespace Cert.Proof

open Idealize.ShloMosaic Idealize.SL.Sem

/-- The word-level kernel program runs to the end and leaves its argument unchanged. -/
theorem frame_kernel : Cert.frame_Kernel := fun m ρ _ => Cert.Kernel.PairFrame.frame m ρ

/-- So does the idealized kernel program. -/
theorem frame_kernelIdeal : Cert.frame_KernelIdeal := fun m ρ _ => Cert.KernelIdeal.PairFrame.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the distance matrix of the argument they agree on. -/
theorem algebraic : Cert.algebraic_KernelIdeal_ReferenceIdeal := by
  intro m ρ m' ρ' _ hagree
  refine ⟨fun c => Cert.PairDist.negDist (m ((c.tc : Thread Cert.KernelIdeal.nD Cert.KernelIdeal.τ).loc Cert.KernelIdeal.main_arg0)),
    Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_is_negDist, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
